-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S256x128 : Shape := ⟨2, ![256, 128]⟩
abbrev S256x1 : Shape := ⟨2, ![256, 1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S8192x128 .f32) (main_arg1 : FVec F S256x128 .f32) (main_arg2 : FVec F S256x1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x1 .f32 := Host.absf main_arg2
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  main_v13
-- ==== Kernel.lean ====
abbrev S8192x128 : Shape := ⟨2, ![8192, 128]⟩
abbrev S256x128 : Shape := ⟨2, ![256, 128]⟩
abbrev S256x1 : Shape := ⟨2, ![256, 1]⟩
abbrev S128x128 : Shape := ⟨2, ![128, 128]⟩
abbrev S128x1 : Shape := ⟨2, ![128, 1]⟩
abbrev S_ : Shape := ⟨0, ![]⟩
abbrev S8192x1 : Shape := ⟨2, ![8192, 1]⟩
abbrev S1x8192 : Shape := ⟨2, ![1, 8192]⟩
abbrev S128 : Shape := ⟨1, ![128]⟩
abbrev S1x128 : Shape := ⟨2, ![1, 128]⟩
abbrev S8192x8192 : Shape := ⟨2, ![8192, 8192]⟩
abbrev S1024x128 : Shape := ⟨2, ![1024, 128]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 22
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S256x128, .f32⟩
  | .hbm, ⟨2, _⟩ => ⟨S256x1, .f32⟩
  | .hbm, ⟨3, _⟩ => ⟨S128x128, .f32⟩
  | .hbm, ⟨4, _⟩ => ⟨S128x128, .f32⟩
  | .hbm, ⟨5, _⟩ => ⟨S128x1, .f32⟩
  | .hbm, ⟨6, _⟩ => ⟨S128x1, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S128x1, .f32⟩
  | .hbm, ⟨11, _⟩ => ⟨S128x1, .f32⟩
  | .hbm, ⟨12, _⟩ => ⟨S8192x1, .f32⟩
  | .hbm, ⟨13, _⟩ => ⟨S8192x1, .f32⟩
  | .hbm, ⟨14, _⟩ => ⟨S1x8192, .f32⟩
  | .hbm, ⟨15, _⟩ => ⟨S128, .f32⟩
  | .hbm, ⟨16, _⟩ => ⟨S1x128, .f32⟩
  | .hbm, ⟨17, _⟩ => ⟨S8192x128, .f32⟩
  | .hbm, ⟨18, _⟩ => ⟨S8192x128, .f32⟩
  | .hbm, ⟨19, _⟩ => ⟨S8192x128, .bf16⟩
  | .hbm, ⟨20, _⟩ => ⟨S8192x128, .bf16⟩
  | .hbm, ⟨21, _⟩ => ⟨S8192x8192, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S256x128_S128x128_0_0 : S256x128.Slices ![0, 0] S128x128
  slices_S256x128_S128x128_128_0 : S256x128.Slices ![128, 0] S128x128
  slices_S256x1_S128x1_0_0 : S256x1.Slices ![0, 0] S128x1
  slices_S256x1_S128x1_128_0 : S256x1.Slices ![128, 0] S128x1
  bcast_S_S8192x128 : S_.BroadcastsInDim S8192x128 (![] : Fin 0 → Fin S8192x128.rank)
  shapeCasts_S8192x1_S1x8192 : S8192x1.ShapeCasts S1x8192
  shapeCasts_S128x1_S128 : S128x1.ShapeCasts S128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S128x128_S128x1_S128x1_1_0_0_1_n_n_wf : DotDims.WF S128x128 S128x1 S128x1 [1] [0] [0] [1] [] []
  dot_S8192x128_S128x1_S8192x1_1_0_0_1_n_n_wf : DotDims.WF S8192x128 S128x1 S8192x1 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v14) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S256x128 : Shape := ⟨2, ![256, 128]⟩
abbrev S256x1 : Shape := ⟨2, ![256, 1]⟩
abbrev S128x128 : Shape := ⟨2, ![128, 128]⟩
abbrev S128x1 : Shape := ⟨2, ![128, 1]⟩
abbrev S_ : Shape := ⟨0, ![]⟩
abbrev S8192x1 : Shape := ⟨2, ![8192, 1]⟩
abbrev S128 : Shape := ⟨1, ![128]⟩
abbrev S1x128 : Shape := ⟨2, ![1, 128]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S256x128, .f32⟩
  | .hbm, ⟨2, _⟩ => ⟨S256x1, .f32⟩
  | .hbm, ⟨3, _⟩ => ⟨S128x128, .f32⟩
  | .hbm, ⟨4, _⟩ => ⟨S128x128, .f32⟩
  | .hbm, ⟨5, _⟩ => ⟨S128x1, .f32⟩
  | .hbm, ⟨6, _⟩ => ⟨S128x1, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x1, .f32⟩
  | .hbm, ⟨12, _⟩ => ⟨S8192x128, .f32⟩
  | .hbm, ⟨13, _⟩ => ⟨S8192x1, .f32⟩
  | .hbm, ⟨14, _⟩ => ⟨S128, .f32⟩
  | .hbm, ⟨15, _⟩ => ⟨S1x128, .f32⟩
  | .hbm, ⟨16, _⟩ => ⟨S8192x128, .f32⟩
  | .hbm, ⟨17, _⟩ => ⟨S8192x128, .f32⟩
  | .hbm, ⟨18, _⟩ => ⟨S128x8192, .f32⟩
  | .hbm, ⟨19, _⟩ => ⟨S8192x8192, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  slices_S256x128_S128x128_0_0 : S256x128.Slices ![0, 0] S128x128
  slices_S256x128_S128x128_128_0 : S256x128.Slices ![128, 0] S128x128
  slices_S256x1_S128x1_0_0 : S256x1.Slices ![0, 0] S128x1
  slices_S256x1_S128x1_128_0 : S256x1.Slices ![128, 0] S128x1
  bcast_S_S8192x128 : S_.BroadcastsInDim S8192x128 (![] : Fin 0 → Fin S8192x128.rank)
  shapeCasts_S128x1_S128 : S128x1.ShapeCasts S128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  dot_S8192x128_S128x8192_S8192x8192_1_0_0_1_n_n_wf : DotDims.WF S8192x128 S128x8192 S8192x8192 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«159595_j40699110097057_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibBiasLayer.lean ====
/-
  A dense layer with a bias row, as plain functions of matrices of extended reals, and each way a program spells it.

  `affine x w b` is the `[a, N]` matrix whose entry `(r, q)` is the row product `∑ₖ x (r, k) · w (k, q)` plus the
  bias `b q`; `reluAffine x w b` clamps every entry of it at zero from below. Both are stated entry by entry, so
  they read the same on a block of rows and on the whole matrix: entry `(r, q)` depends on `x` only through its
  row `r` (`affine_congr`, `reluAffine_congr`).

  A vector program lays the bias `[N]` out as a row `[1, N]` by a shape cast and over the `a` rows by a
  broadcast; a host program does both steps by `broadcast_in_dim`. Either way the laid-out bias read at `(r, q)`
  is `b q` (`row_over_rows_apply`, `host_row_over_rows_apply`). With the matrix product into a zero accumulator,
  respectively the `dot_general`, read as the row product, the whole layer read at `(r, q)` at the ideal values is
  `affine` (`vector_affine_apply`, `host_affine_apply`), and followed by the maximum against a splat of zero it is
  `reluAffine` (`vector_reluAffine_apply`, `host_reluAffine_apply`).

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«159595_j40699110097057_1_alg».proof.Proof.LibDenseLayer

noncomputable section

namespace Cert.BiasLayer

open Idealize.ShloMosaic Idealize.ShloMosaic.ValueIdx Cert.DenseLayer

/-- A vector of `n` extended reals, indexed as the arrays are. -/
abbrev Row (n : ℕ) : Type := (⟨1, ![n]⟩ : Shape).Idx → EReal

variable {a K N : ℕ}

/-! ## The layer -/

/-- `x · w + b`, entry by entry: at `(r, q)` the row product of row `r` with column `q`, plus `b q`. -/
def affine (x : Mat a K) (w : Mat K N) (b : Row N) : Mat a N :=
  fun i => prodRow x w (i 0) (i 1) + b (ix1 (i 1))

/-- `x · w + b` clamped at zero from below, entry by entry (the zero written as the word a program writes). -/
def reluAffine (x : Mat a K) (w : Mat K N) (b : Row N) : Mat a N :=
  fun i => max (affine x w b i) (Ideal.ofBits .f32 0x00000000#32)

theorem affine_apply (x : Mat a K) (w : Mat K N) (b : Row N) (r : Fin a) (q : Fin N) :
    affine x w b (ix2 r q) = prodRow x w r q + b (ix1 q) := rfl

theorem reluAffine_apply (x : Mat a K) (w : Mat K N) (b : Row N) (r : Fin a) (q : Fin N) :
    reluAffine x w b (ix2 r q) = max (affine x w b (ix2 r q)) (Ideal.ofBits .f32 0x00000000#32) := rfl

/-- An entry of the layer depends on the left matrix only through the entry's row. -/
theorem affine_congr {a' : ℕ} (x : Mat a K) (x' : Mat a' K) (w : Mat K N) (b : Row N) (r : Fin a) (r' : Fin a')
    (h : ∀ k, x (ix2 r k) = x' (ix2 r' k)) (q : Fin N) : affine x w b (ix2 r q) = affine x' w b (ix2 r' q) := by
  rw [affine_apply, affine_apply, prodRow_congr x x' w r r' h]

/-- The same for the clamped layer. -/
theorem reluAffine_congr {a' : ℕ} (x : Mat a K) (x' : Mat a' K) (w : Mat K N) (b : Row N) (r : Fin a) (r' : Fin a')
    (h : ∀ k, x (ix2 r k) = x' (ix2 r' k)) (q : Fin N) :
    reluAffine x w b (ix2 r q) = reluAffine x' w b (ix2 r' q) := by
  rw [reluAffine_apply, reluAffine_apply, affine_congr x x' w b r r' h q]

/-! ## The bias laid over the rows -/

variable {α : Type}

/-- A vector `[N]` cast to the row `[1, N]` reads, at `(u, q)`, the vector at `q`, whatever the unit coordinate. -/
theorem shapeCast_n_1n_apply (v : (⟨1, ![N]⟩ : Shape).Idx → α) (h : (⟨1, ![N]⟩ : Shape).ShapeCasts ⟨2, ![1, N]⟩)
    (u : Fin 1) (q : Fin N) : shapeCast ⟨2, ![1, N]⟩ v h (ix2 u q) = v (ix1 q) :=
  shapeCast_apply v h _ _ (by
    have hu : u.val = 0 := by omega
    rw [Shape.rowMajor_val_two, Shape.rowMajor_val_one]
    show q.val = u.val * N + q.val
    rw [hu, Nat.zero_mul, Nat.zero_add])

/-- A vector program's bias: the vector as a row, broadcast over `a` rows, is `v q` at `(r, q)`. -/
theorem row_over_rows_apply (v : (⟨1, ![N]⟩ : Shape).Idx → α) (hc : (⟨1, ![N]⟩ : Shape).ShapeCasts ⟨2, ![1, N]⟩)
    (hb : (⟨2, ![1, N]⟩ : Shape).Broadcasts ⟨2, ![a, N]⟩) (r : Fin a) (q : Fin N) :
    broadcastTo ⟨2, ![a, N]⟩ (shapeCast ⟨2, ![1, N]⟩ v hc) hb (ix2 r q) = v (ix1 q) :=
  (broadcastTo_1b_ab_apply _ hb r q).trans (shapeCast_n_1n_apply v hc 0 q)

/-- A host program's bias: the vector broadcast into the row `[1, N]` along its second axis, then over `a` rows,
    is `v q` at `(r, q)`. -/
theorem host_row_over_rows_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    broadcastInDim ⟨2, ![a, N]⟩ ![0, 1] h2 (broadcastInDim ⟨2, ![1, N]⟩ ![1] h1 v) (ix2 r q) = v (ix1 q) := by
  have hq : q.val = if N = 1 then 0 else q.val := by
    split
    · have := q.isLt; omega
    · rfl
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ => exact hq
  · match ax with
    | ⟨0, _⟩ => exact hq

/-- A host program's splat of a scalar constant reads that constant everywhere. -/
theorem host_splat_apply {s : Shape} (c : (⟨0, ![]⟩ : Shape).Idx → α) (h : (⟨0, ![]⟩ : Shape).BroadcastsInDim s ![])
    (i : s.Idx) : broadcastInDim s ![] h c i = c ix0 :=
  broadcastInDim_apply _ h c i ix0 fun ax => ax.elim0

/-! ## The layer as a vector program and as a host program spell it -/

section Spellings

variable {φ₁ φ₂ : FTy} {d : DotDims ⟨2, ![a, K]⟩ ⟨2, ![K, N]⟩ ⟨2, ![a, N]⟩}
  (x : FVec Ideal ⟨2, ![a, K]⟩ φ₁) (w : FVec Ideal ⟨2, ![K, N]⟩ φ₂) (b : FVec Ideal ⟨1, ![N]⟩ .f32)

/-- A vector program's product into the zero accumulator plus the laid-out bias is `affine`, entry by entry. -/
theorem vector_affine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    addf (matmul d prec x w (constant ⟨2, ![a, N]⟩ .f32 0x00000000#32))
        (broadcastTo ⟨2, ![a, N]⟩ (shapeCast ⟨2, ![1, N]⟩ b hc) hb) (ix2 r q)
      = affine x w b (ix2 r q) := by
  show FloatOps.matmul d prec x w (constant ⟨2, ![a, N]⟩ .f32 0x00000000#32) (ix2 r q)
      + broadcastTo ⟨2, ![a, N]⟩ (shapeCast ⟨2, ![1, N]⟩ b hc) hb (ix2 r q) = _
  rw [matmul_zero_apply hd, row_over_rows_apply]
  rfl

/-- Followed by the maximum against a splat of the zero word it is `reluAffine`. -/
theorem vector_reluAffine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32)) (ix2 r q)
      = reluAffine x w b (ix2 r q) := by
  show max (addf (matmul d prec x w (constant ⟨2, ![a, N]⟩ .f32 0x00000000#32))
        (broadcastTo ⟨2, ![a, N]⟩ (shapeCast ⟨2, ![1, N]⟩ b hc) hb) (ix2 r q)) (Ideal.ofBits .f32 0x00000000#32) = _
  rw [vector_affine_apply x w b hd prec hc hb r q]
  rfl

/-- A host program's `dot_general` plus the laid-out bias is `affine`, entry by entry. -/
theorem host_affine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    addf (Host.dotGeneral d prec x w)
        (broadcastInDim ⟨2, ![a, N]⟩ ![0, 1] h2 (broadcastInDim ⟨2, ![1, N]⟩ ![1] h1 b)) (ix2 r q)
      = affine x w b (ix2 r q) := by
  show FloatOps.dotGeneral d prec .single x w (ix2 r q)
      + broadcastInDim ⟨2, ![a, N]⟩ ![0, 1] h2 (broadcastInDim ⟨2, ![1, N]⟩ ![1] h1 b) (ix2 r q) = _
  rw [dotGeneral_apply hd, host_row_over_rows_apply]
  rfl

/-- Followed by the maximum against a host splat of the zero word it is `reluAffine`. -/
theorem host_reluAffine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) (r : Fin a) (q : Fin N) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32)) (ix2 r q)
      = reluAffine x w b (ix2 r q) := by
  show max (addf (Host.dotGeneral d prec x w)
        (broadcastInDim ⟨2, ![a, N]⟩ ![0, 1] h2 (broadcastInDim ⟨2, ![1, N]⟩ ![1] h1 b)) (ix2 r q))
      (broadcastInDim ⟨2, ![a, N]⟩ ![] h0 (constant (F := Ideal) ⟨0, ![]⟩ .f32 0x00000000#32) (ix2 r q)) = _
  rw [host_affine_apply x w b hd prec h1 h2 r q, host_splat_apply]
  rfl

end Spellings

end Cert.BiasLayer

end
-- ==== Proof.LibPropagationChain.lean ====
/-
  Three dense layers over one square propagation matrix, as plain functions of matrices of extended reals, in the two
  orders a program may multiply them, and the row-wise log-softmax in its two spellings.

  A propagation layer takes the node features `H : [n, K]`, a weight matrix `W : [K, N]`, a bias and the square
  matrix `A : [n, n]`, and returns `A · H · W + b`. The triple product can be bracketed `(A · H) · W` or
  `A · (H · W)`. On the extended reals multiplication does not distribute over addition at the infinities, so the two
  bracketings are proved equal only where every entry is a real number (`prodRow_assoc`): there both are the double
  sum `∑ₖ ∑ⱼ A (r, j) · H (j, k) · W (k, q)`, summed in either order. Real-valuedness is kept by sums, products,
  the maximum with a real and so by every layer (`IsReal.*`).

  The log-softmax of a row `z` is `z q − top − log ∑ⱼ exp (z j − top)` with `top` the row's maximum. One spelling
  subtracts `top + log ∑ …` at once, the other subtracts `top` and then the logarithm. For a real `z q` and a real
  `top` the two agree whatever the logarithm's value, since negation distributes over a sum with a real summand and
  addition is associative (`sub_add_eq_sub_sub_real`). The maximum of a non-empty real row, folded from `-∞`, is real
  (`rowFold_real`), and one more maximum against `-∞` changes nothing (`rowTop_eq_rowFold`).

  All are generic in the extents.
-/
import proofs.«159595_j40699110097057_1_alg».proof.Proof.LibBiasLayer

noncomputable section

namespace Cert.PropagationChain

open Idealize.ShloMosaic Idealize.ShloMosaic.ValueIdx Cert.DenseLayer Cert.BiasLayer

/-! ## Real-valued families -/

/-- Every entry is a real number (neither infinity). -/
def IsReal {ι : Type} (f : ι → EReal) : Prop := ∀ i, ∃ r : ℝ, f i = (r : EReal)

/-- The coercion of a finite real sum is the sum of the coercions. -/
theorem coe_sum {ι : Type} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A finite sum of reals is real. -/
theorem sum_real {ι : Type} (s : Finset ι) (f : ι → EReal) (hf : ∀ k, ∃ r : ℝ, f k = (r : EReal)) :
    ∃ r : ℝ, ∑ k ∈ s, f k = (r : EReal) := by
  choose g hg using hf
  exact ⟨∑ k ∈ s, g k, by rw [coe_sum]; exact Finset.sum_congr rfl fun k _ => hg k⟩

/-- A product of two reals is real. -/
theorem mul_real {x y : EReal} (hx : ∃ r : ℝ, x = (r : EReal)) (hy : ∃ r : ℝ, y = (r : EReal)) : ∃ r : ℝ, x * y = (r : EReal) := by
  obtain ⟨a, rfl⟩ := hx; obtain ⟨b, rfl⟩ := hy
  exact ⟨a * b, (EReal.coe_mul a b).symm⟩

/-- A sum of two reals is real. -/
theorem add_real {x y : EReal} (hx : ∃ r : ℝ, x = (r : EReal)) (hy : ∃ r : ℝ, y = (r : EReal)) : ∃ r : ℝ, x + y = (r : EReal) := by
  obtain ⟨a, rfl⟩ := hx; obtain ⟨b, rfl⟩ := hy
  exact ⟨a + b, (EReal.coe_add a b).symm⟩

/-- The maximum of two reals is real. -/
theorem max_real {x y : EReal} (hx : ∃ r : ℝ, x = (r : EReal)) (hy : ∃ r : ℝ, y = (r : EReal)) : ∃ r : ℝ, max x y = (r : EReal) := by
  obtain ⟨a, rfl⟩ := hx; obtain ⟨b, rfl⟩ := hy
  rcases le_total (a : EReal) (b : EReal) with h | h
  · exact ⟨b, max_eq_right h⟩
  · exact ⟨a, max_eq_left h⟩

/-- The word of `+0.0` denotes the real zero. -/
theorem zero_word_real : ∃ r : ℝ, Ideal.ofBits .f32 0x00000000#32 = (r : EReal) := ⟨0, by rw [Ideal.ofBits_zero_f32]; rfl⟩

/-! ## The whole product and its layers -/

variable {n J K N : ℕ}

/-- The product matrix `x · y`. -/
def mm (x : Mat n J) (y : Mat J K) : Mat n K := fun i => prodRow x y (i 0) (i 1)

theorem mm_apply (x : Mat n J) (y : Mat J K) (r : Fin n) (k : Fin K) : mm x y (ix2 r k) = prodRow x y r k := rfl

theorem prodRow_real {x : Mat n J} {y : Mat J K} (hx : IsReal x) (hy : IsReal y) (r : Fin n) (k : Fin K) :
    ∃ v : ℝ, prodRow x y r k = (v : EReal) :=
  sum_real _ _ fun j => mul_real (hx _) (hy _)

theorem IsReal.mm {x : Mat n J} {y : Mat J K} (hx : IsReal x) (hy : IsReal y) : IsReal (mm x y) :=
  fun i => prodRow_real hx hy (i 0) (i 1)

theorem IsReal.affine {x : Mat n J} {y : Mat J K} {b : Row K} (hx : IsReal x) (hy : IsReal y) (hb : IsReal b) :
    IsReal (affine x y b) :=
  fun i => add_real (prodRow_real hx hy (i 0) (i 1)) (hb _)

theorem IsReal.reluAffine {x : Mat n J} {y : Mat J K} {b : Row K} (hx : IsReal x) (hy : IsReal y) (hb : IsReal b) :
    IsReal (reluAffine x y b) :=
  fun i => max_real (IsReal.affine hx hy hb i) zero_word_real

/-- The two bracketings of a triple product of real matrices agree entry by entry: both are the double sum over the
    two contracted axes, taken in either order. -/
theorem prodRow_assoc (x : Mat n J) (y : Mat J K) (w : Mat K N) (hx : IsReal x) (hy : IsReal y) (hw : IsReal w)
    (r : Fin n) (q : Fin N) : prodRow (mm x y) w r q = prodRow x (mm y w) r q := by
  choose gx hgx using hx
  choose gy hgy using hy
  choose gw hgw using hw
  have hL : prodRow (mm x y) w r q
      = ((∑ k : Fin K, (∑ j : Fin J, gx (ix2 r j) * gy (ix2 j k)) * gw (ix2 k q) : ℝ) : EReal) := by
    show ∑ k : Fin K, (∑ j : Fin J, x (ix2 r j) * y (ix2 j k)) * w (ix2 k q) = _
    rw [coe_sum]
    refine Finset.sum_congr rfl fun k _ => ?_
    rw [EReal.coe_mul, coe_sum, hgw]
    refine congrArg (· * (gw (ix2 k q) : EReal)) (Finset.sum_congr rfl fun j _ => ?_)
    rw [EReal.coe_mul, hgx, hgy]
  have hR : prodRow x (mm y w) r q
      = ((∑ j : Fin J, gx (ix2 r j) * (∑ k : Fin K, gy (ix2 j k) * gw (ix2 k q)) : ℝ) : EReal) := by
    show ∑ j : Fin J, x (ix2 r j) * (∑ k : Fin K, y (ix2 j k) * w (ix2 k q)) = _
    rw [coe_sum]
    refine Finset.sum_congr rfl fun j _ => ?_
    rw [EReal.coe_mul, coe_sum, hgx]
    refine congrArg ((gx (ix2 r j) : EReal) * ·) (Finset.sum_congr rfl fun k _ => ?_)
    rw [EReal.coe_mul, hgy, hgw]
  rw [hL, hR]
  congr 1
  simp only [Finset.sum_mul, Finset.mul_sum]
  rw [Finset.sum_comm]
  exact Finset.sum_congr rfl fun j _ => Finset.sum_congr rfl fun k _ => mul_assoc _ _ _

/-- A propagation layer in either bracketing, over real matrices, is one matrix. -/
theorem reluAffine_assoc (x : Mat n J) (y : Mat J K) (w : Mat K N) (b : Row N) (hx : IsReal x) (hy : IsReal y)
    (hw : IsReal w) : reluAffine (mm x y) w b = reluAffine x (mm y w) b :=
  funext fun i =>
    congrArg (fun v : EReal => max (v + b (ix1 (i 1))) (Ideal.ofBits .f32 0x00000000#32))
      (prodRow_assoc x y w hx hy hw (i 0) (i 1))

/-! ## The row log-softmax -/

/-- The word of `-∞` denotes the bottom element. -/
theorem neg_inf_word : Ideal.ofBits .f32 0xFF800000#32 = (⊥ : EReal) := by simp [Ideal.ofBits, Ideal.ieee]

/-- The maximum of a row folded from `-∞` (the word a program writes). -/
def rowFold (z : Fin N → EReal) : EReal := Finset.univ.fold max (Ideal.ofBits .f32 0xFF800000#32) z

/-- One more maximum against `-∞` changes nothing. -/
theorem rowTop_eq_rowFold (z : Fin N → EReal) : rowTop z = rowFold z := by
  unfold rowTop rowFold
  rw [neg_inf_word]
  exact max_eq_right bot_le

/-- The maximum of real entries over a non-empty finite set, folded from `-∞`, is real. -/
theorem fold_max_real {ι : Type} (s : Finset ι) (hs : s.Nonempty) (f : ι → EReal) (hf : ∀ k, ∃ r : ℝ, f k = (r : EReal)) :
    ∃ r : ℝ, s.fold max (⊥ : EReal) f = (r : EReal) := by
  classical
  induction hs using Finset.Nonempty.cons_induction with
  | singleton a =>
    obtain ⟨v, hv⟩ := hf a
    exact ⟨v, by rw [Finset.fold_singleton, hv]; exact max_eq_left bot_le⟩
  | cons a s ha hs ih =>
    obtain ⟨v, hv⟩ := ih
    rw [Finset.fold_cons, hv]
    exact max_real (hf a) ⟨v, rfl⟩

theorem rowFold_real (hN : 0 < N) (z : Fin N → EReal) (hz : ∀ k, ∃ r : ℝ, z k = (r : EReal)) : ∃ r : ℝ, rowFold z = (r : EReal) := by
  unfold rowFold
  rw [neg_inf_word]
  exact fold_max_real _ ⟨⟨0, hN⟩, Finset.mem_univ _⟩ z hz

/-- For real `x` and `t` and any `l`: `x − (t + l) = (x − t) − l`. -/
theorem sub_add_eq_sub_sub_real (x t : ℝ) (l : EReal) : (x : EReal) - ((t : EReal) + l) = ((x : EReal) - (t : EReal)) - l := by
  rw [sub_eq_add_neg, sub_eq_add_neg, sub_eq_add_neg,
    EReal.neg_add (Or.inl (EReal.coe_ne_bot t)) (Or.inl (EReal.coe_ne_top t)), sub_eq_add_neg, add_assoc]

/-- The log-softmax of a row, the maximum and the logarithm subtracted together. -/
def logSoftmaxJoint (z : Fin N → EReal) (q : Fin N) : EReal :=
  z q - (rowFold z + Ideal.log (∑ j : Fin N, Ideal.exp (z j - rowFold z)))

/-- The log-softmax of a row, the maximum subtracted first and the logarithm (of the sum taken from the zero word)
    after. -/
def logSoftmaxShifted (z : Fin N → EReal) (q : Fin N) : EReal :=
  (z q - rowTop z) - Ideal.log (Ideal.ofBits .f32 0x00000000#32 + ∑ j : Fin N, Ideal.exp (z j - rowTop z))

/-- On a non-empty real row the two spellings agree. -/
theorem logSoftmax_spellings (hN : 0 < N) (z : Fin N → EReal) (hz : ∀ k, ∃ r : ℝ, z k = (r : EReal)) (q : Fin N) :
    logSoftmaxJoint z q = logSoftmaxShifted z q := by
  unfold logSoftmaxJoint logSoftmaxShifted
  rw [rowTop_eq_rowFold, Ideal.ofBits_zero_f32, zero_add]
  obtain ⟨t, ht⟩ := rowFold_real hN z hz
  obtain ⟨x, hx⟩ := hz q
  rw [ht, hx]
  exact sub_add_eq_sub_sub_real x t _

/-! ## The network in its two orders -/

/-- A bias stored as a one-row matrix, read as a row. -/
def rowOf (b : Mat 1 N) : Row N := fun j => b (ix2 (0 : Fin 1) (j 0))

theorem rowOf_apply (b : Mat 1 N) (q : Fin N) : rowOf b (ix1 q) = b (ix2 (0 : Fin 1) q) := rfl

/-- First layer, the propagation product taken first: `relu ((A · X) · W + b)`. -/
def layerFirst (A : Mat n n) (X : Mat n J) (W : Mat J K) (b : Mat 1 K) : Mat n K := reluAffine (mm A X) W (rowOf b)

/-- Second layer fused with the projection: `relu ((A · H) · W + b) · C`. -/
def layerProject (A : Mat n n) (H : Mat n J) (W : Mat J K) (b : Mat 1 K) (C : Mat K N) : Mat n N :=
  mm (reluAffine (mm A H) W (rowOf b)) C

/-- Last layer: the row log-softmax of `A · Z + b`, maximum and logarithm subtracted together. -/
def layerLogSoftmax (A : Mat n n) (Z : Mat n N) (b : Mat 1 N) : Mat n N :=
  fun i => logSoftmaxJoint (fun k => affine A Z (rowOf b) (ix2 (i 0) k)) (i 1)

/-- The reference network: each layer `relu (A · (H · W) + b)`, then `A · (H · C) + c` and the row log-softmax with
    the maximum subtracted first. -/
def reference (A : Mat n n) (X : Mat n J) (W0 : Mat J K) (b0 : Row K) (W1 : Mat K K) (b1 : Row K) (C : Mat K N) (c : Row N) : Mat n N :=
  fun i => logSoftmaxShifted
    (fun k => affine A (mm (reluAffine A (mm (reluAffine A (mm X W0) b0) W1) b1) C) c (ix2 (i 0) k)) (i 1)

/-- On real inputs the three fused layers compute the reference network. -/
theorem layers_eq_reference (hN : 0 < N) (A : Mat n n) (X : Mat n J) (W0 : Mat J K) (b0 : Mat 1 K) (W1 : Mat K K) (b1 : Mat 1 K)
    (C : Mat K N) (c : Mat 1 N) (hA : IsReal A) (hX : IsReal X) (hW0 : IsReal W0) (hb0 : IsReal b0) (hW1 : IsReal W1)
    (hb1 : IsReal b1) (hC : IsReal C) (hc : IsReal c) :
    layerLogSoftmax A (layerProject A (layerFirst A X W0 b0) W1 b1 C) c
      = reference A X W0 (rowOf b0) W1 (rowOf b1) C (rowOf c) := by
  have hb0' : IsReal (rowOf b0) := fun j => hb0 _
  have hb1' : IsReal (rowOf b1) := fun j => hb1 _
  have hc' : IsReal (rowOf c) := fun j => hc _
  have e1 : layerFirst A X W0 b0 = reluAffine A (mm X W0) (rowOf b0) := reluAffine_assoc A X W0 _ hA hX hW0
  have h1 : IsReal (reluAffine A (mm X W0) (rowOf b0)) := IsReal.reluAffine hA (IsReal.mm hX hW0) hb0'
  have e2 : reluAffine (mm A (reluAffine A (mm X W0) (rowOf b0))) W1 (rowOf b1)
      = reluAffine A (mm (reluAffine A (mm X W0) (rowOf b0)) W1) (rowOf b1) := reluAffine_assoc A _ W1 _ hA h1 hW1
  have h2 : IsReal (reluAffine A (mm (reluAffine A (mm X W0) (rowOf b0)) W1) (rowOf b1)) :=
    IsReal.reluAffine hA (IsReal.mm h1 hW1) hb1'
  funext i
  unfold layerLogSoftmax layerProject reference
  rw [e1, e2]
  exact logSoftmax_spellings hN _ (fun k => IsReal.affine hA (IsReal.mm h2 hC) hc' _) (i 1)

end Cert.PropagationChain

end
-- ==== Proof.LibRowsDot.lean ====
/-
  Products of a matrix with the ROWS of another: `x · wᵀ`, entry by entry, and the operations that spell it.

  For `x : [a, K]` and `w : [N, K]`, row `r` of `x · wᵀ` has in column `q` the sum over `k` of
  `x (r, k) · w (q, k)` (`prodRowT`): the contraction runs along the second axis of both factors, as in
  `einsum('bi,oi->bo')` or a linear layer that stores its weight as `[out, in]`.

  * `prodRow_transposed` — the plain product `prodRow` (row times column) with a matrix that is `w` transposed
    is `prodRowT` with `w`: how a program that is handed `wᵀ` and contracts its first axis meets one that
    contracts the second axis of `w` itself;
  * `RowsDot` — what it means for a contraction's dimension numbers to be of this kind (one contracted axis, the
    left operand read at `(row, k)`, the right at `(column, k)`), and `sum_contr_eq_prodRowT`: such a
    contraction's sum over its own index type is `prodRowT`;
  * `dotGeneral_rows_apply` — a host program's `dot_general` of this kind, at the ideal values, is `prodRowT`
    entry by entry, whatever the operands' float formats.

  All are generic in the extents.
-/
import Idealize.ShloMosaic.Lib.Pipeline.Value
import Idealize.ShloMosaic.Lib.ValueIdx
import Idealize.ShloMosaic.PureOps.Ideal.Laws
import proofs.«159595_j40699110097057_1_alg».proof.Proof.LibDenseLayer

noncomputable section

namespace Cert.DenseRows

open Idealize.ShloMosaic Idealize.ShloMosaic.ValueIdx
open Cert.DenseLayer (Mat prodRow)

variable {a K N : ℕ}

/-- Row `r` of `x · wᵀ`: in column `q` the sum over `k` of `x (r, k) · w (q, k)`. -/
def prodRowT (x : Mat a K) (w : Mat N K) (r : Fin a) : Fin N → EReal :=
  fun q => ∑ k : Fin K, x (ix2 r k) * w (ix2 q k)

/-- An entry of the product depends on the left matrix only through its row, and on the right matrix only through
    the row of the column asked for: matrices of any heights that agree along those rows give the same entry. -/
theorem prodRowT_congr {a' N' : ℕ} (x : Mat a K) (x' : Mat a' K) (w : Mat N K) (w' : Mat N' K) (r : Fin a) (r' : Fin a')
    (q : Fin N) (q' : Fin N') (hx : ∀ k, x (ix2 r k) = x' (ix2 r' k)) (hw : ∀ k, w (ix2 q k) = w' (ix2 q' k)) :
    prodRowT x w r q = prodRowT x' w' r' q' :=
  Finset.sum_congr rfl fun k _ => by rw [hx k, hw k]

/-- The plain product with a matrix that is `w` transposed is the product with the rows of `w`. -/
theorem prodRow_transposed (x : Mat a K) (wT : Mat K N) (w : Mat N K) (h : ∀ k q, wT (ix2 k q) = w (ix2 q k))
    (r : Fin a) (q : Fin N) : prodRow x wT r q = prodRowT x w r q :=
  Finset.sum_congr rfl fun k _ => by rw [h k q]

/-- Dimension numbers of a product `[a, K] × [N, K] → [a, N]` along the second axis of both factors: one
    contracted axis of extent `K`, the left operand read at `(row, k)` and the right at `(column, k)`. -/
structure RowsDot (d : DotDims ⟨2, ![a, K]⟩ ⟨2, ![N, K]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (i 1).val
  rhs1 : ∀ (i : (⟨2, ![a, N]⟩ : Shape).Idx) (q : d.contr.Idx), (d.rhsIdx i q 1).val = (q ⟨0, by omega⟩).val

/-- Such a contraction's sum over its own index type is `prodRowT`. -/
theorem sum_contr_eq_prodRowT {d : DotDims ⟨2, ![a, K]⟩ ⟨2, ![N, K]⟩ ⟨2, ![a, N]⟩} (hd : RowsDot d)
    (x : Mat a K) (w : Mat N K) (i : (⟨2, ![a, N]⟩ : Shape).Idx) :
    ∑ k : d.contr.Idx, x (d.lhsIdx i k) * w (d.rhsIdx i k) = prodRowT x w (i 0) (i 1) := by
  unfold prodRowT
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 (i 1) k := funext fun ax => Fin.ext (by
    match ax with
    | ⟨0, _⟩ => exact hd.rhs0 _ _
    | ⟨1, _⟩ => exact (hd.rhs1 _ _).trans hk)
  rw [el, er]
  rfl

/-- A host program's `dot_general` along the second axis of both operands, at the ideal values, is `prodRowT`
    entry by entry. -/
theorem dotGeneral_rows_apply {φ₁ φ₂ : FTy} {d : DotDims ⟨2, ![a, K]⟩ ⟨2, ![N, K]⟩ ⟨2, ![a, N]⟩} (hd : RowsDot d)
    (prec : Option ContractPrecision) (sched : HostSchedule) (x : FVec Ideal ⟨2, ![a, K]⟩ φ₁)
    (w : FVec Ideal ⟨2, ![N, K]⟩ φ₂) (i : (⟨2, ![a, N]⟩ : Shape).Idx) :
    FloatOps.dotGeneral d prec sched x w i = prodRowT x w (i 0) (i 1) :=
  (Ideal.dotGeneral_apply d prec sched x w i).trans (sum_contr_eq_prodRowT hd x w i)

end Cert.DenseRows

end
-- ==== Proof.Spec.lean ====
/-
  Pair scores of a link predictor, as plain functions of matrices of extended reals.

  Given node embeddings `z : [n, 128]`, a weight `W : [256, 128]` and a weight column `w : [256, 1]`, split `W` and
  `w` into their upper and lower halves of 128 rows. The score of the ordered pair `(i, j)` is the logistic function of

      a i + b j + ∑ₖ z (i, k) · w (128 + k) · z (j, k),

  where `a = relu z · W↑ · w↑` and `b = relu z · W↓ · w↑` are columns over the nodes (`↑`, `↓`: the upper and the lower
  half). The triple products can be bracketed `relu z · (W · w)`, folding the two weights into one coefficient column
  first (`scoreFolded`), or `(relu z · W) · w`, one layer after the other (`scoreChained`). On the extended reals the
  two bracketings need not agree at the infinities, since multiplication does not distribute over addition there; they
  agree where every entry of `z`, `W` and `w` is a real number (`scoreChained_eq_scoreFolded`).
-/
import proofs.«159595_j40699110097057_1_alg».proof.Proof.LibPropagationChain
import proofs.«159595_j40699110097057_1_alg».proof.Proof.LibRowsDot

noncomputable section

namespace Cert.PairScore

open Idealize.ShloMosaic Idealize.ShloMosaic.ValueIdx Cert.DenseLayer Cert.DenseRows Cert.PropagationChain

variable {n K q : ℕ}

/-- Every entry clamped at zero from below (the zero written as the word a program writes). -/
def relu (z : Mat n K) : Mat n K := fun i => max (z i) (Ideal.ofBits .f32 0x00000000#32)

/-- The upper 128 rows of a matrix of 256 rows. -/
def upper (W : Mat 256 q) : Mat 128 q := fun i => W (ix2 ⟨(i 0).val, by have := idx2_lt0 i; omega⟩ (i 1))

/-- The lower 128 rows of a matrix of 256 rows. -/
def lower (W : Mat 256 q) : Mat 128 q := fun i => W (ix2 ⟨128 + (i 0).val, by have := idx2_lt0 i; omega⟩ (i 1))

/-- Every row of `z` scaled entry by entry by the column `s`: at `(r, k)` it is `z (r, k) · s k`. -/
def scaled (z : Mat n 128) (s : Mat 128 1) : Mat n 128 := fun i => z i * s (ix2 (i 1) (0 : Fin 1))

theorem relu_apply (z : Mat n K) (i) : relu z i = max (z i) (Ideal.ofBits .f32 0x00000000#32) := rfl

theorem scaled_apply (z : Mat n 128) (s : Mat 128 1) (r : Fin n) (k : Fin 128) :
    scaled z s (ix2 r k) = z (ix2 r k) * s (ix2 k (0 : Fin 1)) := rfl

theorem IsReal.relu {z : Mat n K} (hz : IsReal z) : IsReal (relu z) := fun i => max_real (hz i) zero_word_real
theorem IsReal.upper {W : Mat 256 q} (hW : IsReal W) : IsReal (upper W) := fun _ => hW _
theorem IsReal.lower {W : Mat 256 q} (hW : IsReal W) : IsReal (lower W) := fun _ => hW _

/-- The pair scores with the two weights folded into one coefficient column before the embeddings are multiplied in. -/
def scoreFolded (z : Mat n 128) (W : Mat 256 128) (w : Mat 256 1) : Mat n n := fun i =>
  Ideal.logistic
    ((prodRow (relu z) (mm (upper W) (upper w)) (i 0) (0 : Fin 1) + prodRow (relu z) (mm (lower W) (upper w)) (i 1) (0 : Fin 1))
      + prodRowT (scaled z (lower w)) z (i 0) (i 1))

/-- The pair scores with the embeddings taken through the two layers one after the other. -/
def scoreChained (z : Mat n 128) (W : Mat 256 128) (w : Mat 256 1) : Mat n n := fun i =>
  Ideal.logistic
    ((prodRow (mm (relu z) (upper W)) (upper w) (i 0) (0 : Fin 1) + prodRow (mm (relu z) (lower W)) (upper w) (i 1) (0 : Fin 1))
      + prodRowT (scaled z (lower w)) z (i 0) (i 1))

/-- On real inputs the two bracketings give the same scores. -/
theorem scoreChained_eq_scoreFolded (z : Mat n 128) (W : Mat 256 128) (w : Mat 256 1) (hz : IsReal z) (hW : IsReal W)
    (hw : IsReal w) : scoreChained z W w = scoreFolded z W w := by
  funext i
  unfold scoreChained scoreFolded
  rw [prodRow_assoc (relu z) (upper W) (upper w) (IsReal.relu hz) (IsReal.upper hW) (IsReal.upper hw) (i 0) 0,
    prodRow_assoc (relu z) (lower W) (upper w) (IsReal.relu hz) (IsReal.lower hW) (IsReal.upper hw) (i 1) 0]

end Cert.PairScore

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«159595_j40699110097057_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.HostForms.lean ====
/-
  The pieces of a pair score as a host program spells them, each as a whole array at the ideal values.

  A host program writes `relu z` as the maximum against a splat of the zero word, the halves of a weight as unit-stride
  slices at row offsets 0 and 128, the scaling of the rows of `z` by a weight column as a product with that column
  reshaped to a vector and laid over the rows by two broadcasts, a change of float format as a conversion (the identity on
  extended reals), and a matrix product as a `dot_general`. Each lemma says that one such spelling, as a whole array, IS
  the plain function of the specification, so that a composed host term is rewritten into the specification's terms
  array by array. The last lemmas read a column reshaped or transposed into a row, and the sigmoid written out as
  `1 / (1 + exp (-s))`.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«159595_j40699110097057_1_alg».proof.Proof.Spec
import proofs.«159595_j40699110097057_1_alg».proof.Proof.LibPlainDot

noncomputable section

namespace Cert.PairScore

open Idealize.ShloMosaic Idealize.ShloMosaic.ValueIdx Cert.DenseLayer Cert.DenseRows Cert.PropagationChain

variable {n K q : ℕ}

/-- The maximum against a splat of the zero word is `relu`. -/
theorem relu_form (x : FVec Ideal ⟨2, ![n, K]⟩ .f32)
    (h : (⟨0, ![]⟩ : Shape).BroadcastsInDim ⟨2, ![n, K]⟩ (![] : Fin 0 → Fin 2)) :
    maximumf x (broadcastInDim ⟨2, ![n, K]⟩ ![] h (constant (F := Ideal) ⟨0, ![]⟩ .f32 0x00000000#32)) = relu x := by
  funext i
  show max (x i) (broadcastInDim ⟨2, ![n, K]⟩ ![] h (constant (F := Ideal) ⟨0, ![]⟩ .f32 0x00000000#32) i) = _
  rw [broadcastInDim_apply _ h _ i (fun a => a.elim0) (fun a => a.elim0)]
  rfl

/-- The unit-stride slice of the first 128 rows is `upper`. -/
theorem upper_form (x : FVec Ideal ⟨2, ![256, q]⟩ .f32) (h : (⟨2, ![256, q]⟩ : Shape).Slices ![0, 0] ⟨2, ![128, q]⟩) :
    extractStridedSlice ⟨2, ![128, q]⟩ ![0, 0] x h = upper x := by
  funext i
  refine extractStridedSlice_apply ![0, 0] x h i (ix2 ⟨(i 0).val, by have := idx2_lt0 i; omega⟩ (i 1)) fun a => ?_
  match a with
  | ⟨0, _⟩ => show (i 0).val = 0 + (i 0).val; omega
  | ⟨1, _⟩ => show (i 1).val = 0 + (i 1).val; omega

/-- The unit-stride slice of the last 128 rows is `lower`. -/
theorem lower_form (x : FVec Ideal ⟨2, ![256, q]⟩ .f32) (h : (⟨2, ![256, q]⟩ : Shape).Slices ![128, 0] ⟨2, ![128, q]⟩) :
    extractStridedSlice ⟨2, ![128, q]⟩ ![128, 0] x h = lower x := by
  funext i
  refine extractStridedSlice_apply ![128, 0] x h i (ix2 ⟨128 + (i 0).val, by have := idx2_lt0 i; omega⟩ (i 1)) fun a => ?_
  match a with
  | ⟨0, _⟩ => show 128 + (i 0).val = 128 + (i 0).val; rfl
  | ⟨1, _⟩ => show (i 1).val = 0 + (i 1).val; omega

/-- The product with a weight column reshaped to a vector, set as a row and laid over all rows is `scaled`. -/
theorem scaled_form (x : FVec Ideal ⟨2, ![n, 128]⟩ .f32) (v : FVec Ideal ⟨2, ![128, 1]⟩ .f32)
    (h0 : (⟨2, ![128, 1]⟩ : Shape).ShapeCasts ⟨1, ![128]⟩)
    (h1 : (⟨1, ![128]⟩ : Shape).BroadcastsInDim ⟨2, ![1, 128]⟩ (![1] : Fin 1 → Fin 2))
    (h2 : (⟨2, ![1, 128]⟩ : Shape).BroadcastsInDim ⟨2, ![n, 128]⟩ (![0, 1] : Fin 2 → Fin 2)) :
    mulf x (broadcastInDim ⟨2, ![n, 128]⟩ ![0, 1] h2 (broadcastInDim ⟨2, ![1, 128]⟩ ![1] h1 (shapeCast ⟨1, ![128]⟩ v h0)))
      = scaled x v := by
  funext i
  show x i * _ = x i * v (ix2 (i 1) (0 : Fin 1))
  congr 1
  rw [broadcastInDim_apply _ h2 _ i (ix2 (0 : Fin 1) (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)]),
    broadcastInDim_apply _ h1 _ (ix2 (0 : Fin 1) (i 1)) (ix1 (i 1)) (fun a => match a with
      | ⟨0, _⟩ => by show (i 1).val = if (128 : Nat) = 1 then 0 else (i 1).val; rw [if_neg (by decide)]),
    shapeCast_apply v h0 (ix1 (i 1)) (ix2 (i 1) (0 : Fin 1)) (by
      rw [Shape.rowMajor_val_two, Shape.rowMajor_val_one]
      show (i 1).val * 1 + 0 = (i 1).val
      omega)]

/-- A conversion to a narrower float format is the identity on extended reals. -/
theorem truncf_form {s : Shape} {φ ψ : FTy} (x : FVec Ideal s φ) (h : ψ.bits < φ.bits) : truncf ψ x h = x := rfl

/-- A plain `dot_general` is the product matrix. -/
theorem dotGeneral_form {a N : ℕ} {d : DotDims ⟨2, ![a, K]⟩ ⟨2, ![K, N]⟩ ⟨2, ![a, N]⟩} (hd : PlainDot d)
    (prec : Option ContractPrecision) (x : FVec Ideal ⟨2, ![a, K]⟩ .f32) (w : FVec Ideal ⟨2, ![K, N]⟩ .f32) :
    Host.dotGeneral d prec x w = mm x w :=
  funext fun i => dotGeneral_apply hd prec .single x w i

/-- A column reshaped into a row reads, at `(0, j)`, the column at `(j, 0)`. -/
theorem column_reshaped_apply {α : Type} (x : (⟨2, ![n, 1]⟩ : Shape).Idx → α) (h : (⟨2, ![n, 1]⟩ : Shape).ShapeCasts ⟨2, ![1, n]⟩)
    (j : Fin n) : shapeCast ⟨2, ![1, n]⟩ x h (ix2 (0 : Fin 1) j) = x (ix2 j (0 : Fin 1)) :=
  shapeCast_apply x h _ _ (by
    rw [Shape.rowMajor_val_two, Shape.rowMajor_val_two]
    show j.val * 1 + 0 = 0 * n + j.val
    omega)

/-- The sigmoid written out with the word of one is the logistic function. -/
theorem logistic_written_out (s : EReal) :
    Ideal.div (Ideal.ofBits .f32 0x3F800000#32) (Ideal.ofBits .f32 0x3F800000#32 + Ideal.exp (-s)) = Ideal.logistic s := by
  rw [Ideal.ofBits_one_f32]
  rfl

end Cert.PairScore

end
-- ==== Proof.KernelArrays.lean ====
/-
  The four arrays the kernel's windows stage, as the region finds them, in the specification's terms.

  Before the region the host part of the program computes, from the embeddings `z`, the weight `W` and the weight column
  `w`: the rows of `z` scaled by the lower half of `w` (window 0's array), `z` itself (window 1's), the column
  `relu z · (W↑ · w↑)` (window 2's) and the column `relu z · (W↓ · w↑)` reshaped into a row (window 3's). The
  conversions to the narrower float format are the identity on extended reals.
-/
import proofs.«159595_j40699110097057_1_alg».proof.Proof.Gen.KernelIdeal.Value
import proofs.«159595_j40699110097057_1_alg».proof.Proof.HostForms
import Idealize.ShloMosaic.Lib.StableHlo.Run

noncomputable section

namespace Cert.KernelIdeal.PairValue

open Cert.KernelIdeal Cert.KernelIdeal.Gen Idealize.ShloMosaic Idealize.ShloMosaic.TcCoe Idealize.SL.Sem Idealize.ShloMosaic.StableHlo
open Idealize.ShloMosaic.ValueIdx Cert.DenseLayer Cert.DenseRows Cert.PropagationChain Cert.PairScore

variable (m : (ℓ : Loc nD τ sig) → Buf (Elt Ideal) ℓ)

/-- The embeddings `z` on core `c`. -/
abbrev zArr (c : Dev nD) : FVec Ideal S8192x128 .f32 := m ((c : Thread nD τ).loc main_arg0)
/-- The weight `W` on core `c`. -/
abbrev WArr (c : Dev nD) : FVec Ideal S256x128 .f32 := m ((c : Thread nD τ).loc main_arg1)
/-- The weight column `w` on core `c`. -/
abbrev wArr (c : Dev nD) : FVec Ideal S256x1 .f32 := m ((c : Thread nD τ).loc main_arg2)

/-- Window 0's array: the rows of `z` scaled by the lower half of `w`. -/
theorem scaled_array (c : Dev nD) : V m c main_v14 = scaled (zArr m c) (lower (wArr m c)) := by
  have e : (V m c main_v14 : FVec Ideal S8192x128 .bf16) = truncf (F := Ideal) .bf16 (mulf (zArr m c) (broadcastInDim S8192x128 ![0, 1] bcast_S1x128_S8192x128_0_1 (broadcastInDim S1x128 ![1] bcast_S128_S1x128_1 (shapeCast S128 (extractStridedSlice S128x1 ![128, 0] (wArr m c) slices_S256x1_S128x1_128_0) shapeCasts_S128x1_S128)))) bitsLt_bf16_f32 := by
    dsimp only [Gen.V]
    simp only [hostOps0, hostOps0_1, hostOps0_2, List.flatten_cons, List.flatten_nil, List.append_nil, List.cons_append, List.nil_append]
    after_results <;> rfl
  rw [e, truncf_form, lower_form, scaled_form]

/-- Window 1's array: `z`. -/
theorem plain_array (c : Dev nD) : V m c main_v15 = zArr m c := by
  have e : (V m c main_v15 : FVec Ideal S8192x128 .bf16) = truncf (F := Ideal) .bf16 (zArr m c) bitsLt_bf16_f32 := by
    dsimp only [Gen.V]
    simp only [hostOps0, hostOps0_1, hostOps0_2, List.flatten_cons, List.flatten_nil, List.append_nil, List.cons_append, List.nil_append]
    after_results <;> rfl
  rw [e]
  rfl

/-- Window 2's array: the column `relu z · (W↑ · w↑)`. -/
theorem first_column (c : Dev nD) :
    V m c main_v7 = mm (relu (zArr m c)) (mm (upper (WArr m c)) (upper (wArr m c))) := by
  have e : (V m c main_v7 : FVec Ideal S8192x1 .f32) = Host.dotGeneral (F := Ideal) dot_S8192x128_S128x1_S8192x1_1_0_0_1_n_n none (maximumf (zArr m c) (broadcastInDim S8192x128 ![] bcast_S_S8192x128 (constant S_ .f32 0x00000000#32))) (Host.dotGeneral dot_S128x128_S128x1_S128x1_1_0_0_1_n_n none (extractStridedSlice S128x128 ![0, 0] (WArr m c) slices_S256x128_S128x128_0_0) (extractStridedSlice S128x1 ![0, 0] (wArr m c) slices_S256x1_S128x1_0_0)) := by
    dsimp only [Gen.V]
    simp only [hostOps0, hostOps0_1, hostOps0_2, List.flatten_cons, List.flatten_nil, List.append_nil, List.cons_append, List.nil_append]
    after_results <;> rfl
  rw [e, relu_form, upper_form, upper_form, dotGeneral_form (plainDot_of_axes _ rfl rfl rfl rfl rfl rfl),
    dotGeneral_form (plainDot_of_axes _ rfl rfl rfl rfl rfl rfl)]

/-- Window 3's array: the column `relu z · (W↓ · w↑)` reshaped into a row. -/
theorem second_row (c : Dev nD) :
    V m c main_v9 = shapeCast S1x8192 (mm (relu (zArr m c)) (mm (lower (WArr m c)) (upper (wArr m c)))) shapeCasts_S8192x1_S1x8192 := by
  have e : (V m c main_v9 : FVec Ideal S1x8192 .f32) = shapeCast S1x8192 (Host.dotGeneral (F := Ideal) dot_S8192x128_S128x1_S8192x1_1_0_0_1_n_n none (maximumf (zArr m c) (broadcastInDim S8192x128 ![] bcast_S_S8192x128 (constant S_ .f32 0x00000000#32))) (Host.dotGeneral dot_S128x128_S128x1_S128x1_1_0_0_1_n_n none (extractStridedSlice S128x128 ![128, 0] (WArr m c) slices_S256x128_S128x128_128_0) (extractStridedSlice S128x1 ![0, 0] (wArr m c) slices_S256x1_S128x1_0_0))) shapeCasts_S8192x1_S1x8192 := by
    dsimp only [Gen.V]
    simp only [hostOps0, hostOps0_1, hostOps0_2, List.flatten_cons, List.flatten_nil, List.append_nil, List.cons_append, List.nil_append]
    after_results <;> rfl
  rw [e, relu_form, lower_form, upper_form, dotGeneral_form (plainDot_of_axes _ rfl rfl rfl rfl rfl rfl),
    dotGeneral_form (plainDot_of_axes _ rfl rfl rfl rfl rfl rfl)]

end Cert.KernelIdeal.PairValue

end
-- ==== Proof.LibRowsDims.lean ====
/-
  Products with the rows of a matrix, `x · wᵀ`, recognised from a contraction's axis lists, and a vector program's
  spelling of one.

  For a product `[a, K] × [N, K] → [a, N]` with no batch axis, the second axis of both operands summed, and the two
  first axes carried in order, the left operand is read at `(row, k)` and the right at `(column, k)`: the record is a
  `RowsDot` (`rowsDot_of_axes`, generic in the extents; the six axis lists are equations that hold by `rfl` of any
  record written with those lists). Then a vector program's matrix product of this kind into the zero accumulator,
  at the ideal values, is `prodRowT` entry by entry, whatever the operands' float formats (`matmul_zero_rows_apply`).
-/
import Idealize.ShloMosaic.PureOps.Dims
import proofs.«159595_j40699110097057_1_alg».proof.Proof.LibRowsDot
import proofs.«159595_j40699110097057_1_alg».proof.Proof.LibPlainDot

noncomputable section

namespace Cert.DenseRows

open Idealize.ShloMosaic Idealize.ShloMosaic.ValueIdx
open Cert.DenseLayer (Mat coord_val_congr)

variable {a K N : ℕ}

/-- Dimension numbers with no batch axis that sum axis 1 of both operands and carry the left operand's axis 0 and
    then the right operand's axis 0 are those of a product with the rows of the right operand. -/
theorem rowsDot_of_axes (d : DotDims ⟨2, ![a, K]⟩ ⟨2, ![N, K]⟩ ⟨2, ![a, N]⟩)
    (hlc : d.lhsContracting = [1]) (hrc : d.rhsContracting = [1])
    (hln : d.lhsNonContracting = [0]) (hrn : d.rhsNonContracting = [0])
    (hlb : d.lhsBatch = []) (hrb : d.rhsBatch = []) : RowsDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => by
    have hb : (0 : Fin (⟨2, ![N, K]⟩ : Shape).rank) ∉ d.rhsBatch := by rw [hrb]; exact List.not_mem_nil
    have hn : (0 : Fin (⟨2, ![N, K]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])
  rhs1 := fun i q => d.rhsIdx_val_of_single hrc i q

/-- A vector program's matrix product along the second axis of both operands into the zero accumulator, at the
    ideal values, is `prodRowT` entry by entry. -/
theorem matmul_zero_rows_apply {φ₁ φ₂ : FTy} {d : DotDims ⟨2, ![a, K]⟩ ⟨2, ![N, K]⟩ ⟨2, ![a, N]⟩} (hd : RowsDot d)
    (prec : Option ContractPrecision) (x : FVec Ideal ⟨2, ![a, K]⟩ φ₁) (w : FVec Ideal ⟨2, ![N, K]⟩ φ₂)
    (i : (⟨2, ![a, N]⟩ : Shape).Idx) :
    FloatOps.matmul d prec x w (constant ⟨2, ![a, N]⟩ .f32 0x00000000#32) i = prodRowT x w (i 0) (i 1) :=
  (Ideal.matmul_constant_zero_apply d prec x w i).trans (sum_contr_eq_prodRowT hd x w i)

end Cert.DenseRows

end
-- ==== Proof.KernelValue.lean ====
/-
  The kernel's result array is the folded pair score.

  The grid has 8 × 8 points; point `(I, J)` stages rows `I·1024 …` of the scaled embeddings and of the first column,
  rows `J·1024 …` of the embeddings and columns `J·1024 …` of the second column laid as a row, and writes block
  `(I, J)` of the result. Within a block, entry `(p, q)` is the logistic function of the first column at row `p`, plus
  the row at column `q`, plus the product of row `p` of the scaled block with row `q` of the embeddings' block
  (`body_apply`). Read through the blocks' positions this is entry `(I·1024 + p, J·1024 + q)` of the folded score
  (`flushed_eq`); the 64 blocks tile the array (`covered`), so the array ends holding the folded score (`final`).
-/
import proofs.«159595_j40699110097057_1_alg».proof.Proof.KernelArrays
import proofs.«159595_j40699110097057_1_alg».proof.Proof.LibRowsDims

noncomputable section

namespace Cert.KernelIdeal.PairValue

open Cert.KernelIdeal Cert.KernelIdeal.Gen Idealize.ShloMosaic Idealize.ShloMosaic.TcCoe Idealize.SL.Sem
open Idealize.ShloMosaic.Pipeline (Dat)
open Idealize.ShloMosaic.ValueIdx Cert.DenseLayer Cert.DenseRows Cert.PropagationChain Cert.PairScore

theorem origin : (![0, 0] : Fin 2 → Nat) = fun _ => 0 := funext fun a => by fin_cases a <;> rfl

/-- The body's result at `(p, q)` of its block, from the four loaded blocks. -/
theorem body_apply (x0 x1 : Vec Ideal S1024x128 .bf16) (x2 : Vec Ideal S1024x1 .f32) (x3 : Vec Ideal S1x1024 .f32)
    (p q : Fin 1024) :
    k0_pay1 x0 x1 x2 x3 (ix2 p q)
      = Ideal.logistic ((x2 (ix2 p (0 : Fin 1)) + x3 (ix2 (0 : Fin 1) q)) + prodRowT x0 x1 p q) := by
  unfold k0_pay1
  show Ideal.logistic ((broadcastTo S1024x1024 (shapeCast S1024x1 x2 shapeCasts_S1024x1_S1024x1) broadcasts_S1024x1_S1024x1024 (ix2 p q)
      + broadcastTo S1024x1024 (shapeCast S1x1024 x3 shapeCasts_S1x1024_S1x1024) broadcasts_S1x1024_S1024x1024 (ix2 p q))
      + matmul (F := Ideal) (φ₁ := .bf16) (φ₂ := .bf16) dot_S1024x128_S1024x128_S1024x1024_1_1_0_0_n_n none (shapeCast S1024x128 x0 shapeCasts_S1024x128_S1024x128)
          (shapeCast S1024x128 x1 shapeCasts_S1024x128_S1024x128) (constant (F := Ideal) S1024x1024 .f32 0x00000000#32) (ix2 p q)) = _
  rw [shapeCast_self, shapeCast_self, shapeCast_self, shapeCast_self, Cert.ColumnLayout.broadcastTo_a1_ab_apply,
    broadcastTo_1b_ab_apply]
  exact congrArg (fun v : EReal => Ideal.logistic ((x2 (ix2 p (0 : Fin 1)) + x3 (ix2 (0 : Fin 1) q)) + v))
    (matmul_zero_rows_apply (φ₁ := .bf16) (φ₂ := .bf16) (rowsDot_of_axes _ rfl rfl rfl rfl rfl rfl) none x0 x1 (ix2 p q))

/-- A block's entry is the folded score's entry at global row `r` and column `s`, when the four loaded blocks hold the
    corresponding rows and columns of the staged arrays. -/
theorem block_apply (z : Mat 8192 128) (W : Mat 256 128) (w : Mat 256 1)
    (x0 x1 : Vec Ideal S1024x128 .bf16) (x2 : Vec Ideal S1024x1 .f32) (x3 : Vec Ideal S1x1024 .f32)
    (r s : Fin 8192) (p q : Fin 1024)
    (h0 : ∀ k : Fin 128, x0 (ix2 p k) = scaled z (lower w) (ix2 r k))
    (h1 : ∀ k : Fin 128, x1 (ix2 q k) = z (ix2 s k))
    (h2 : x2 (ix2 p (0 : Fin 1)) = mm (relu z) (mm (upper W) (upper w)) (ix2 r (0 : Fin 1)))
    (h3 : x3 (ix2 (0 : Fin 1) q) = mm (relu z) (mm (lower W) (upper w)) (ix2 s (0 : Fin 1))) :
    k0_pay1 x0 x1 x2 x3 (ix2 p q) = scoreFolded z W w (ix2 r s) := by
  rw [body_apply, h2, h3, prodRowT_congr x0 (scaled z (lower w)) x1 z p r q s h0 h1]
  rfl

/-- The printed index maps over the grid: windows 0 and 2 move with the output's block row, windows 1 and 3 with its block
    column, and the output's block indices stay below 8. -/
theorem index_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every block of the result is some point's. -/
theorem index_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

variable (m : (ℓ : Loc nD τ sig) → Buf (Elt Ideal) ℓ) (ρ : Dev nD → PrngReg)

/-- What point `t` writes back is block `t` of the folded score of the argument arrays. -/
theorem flushed_eq (c : Dev nD) (t : Fin cfg0.N) :
    (dats m 0 c).flushed 4 t
      = ((cfg0.win 4).blk t).view.read (Elt Ideal) (scoreFolded (zArr m c) (WArr m c) (wArr m c)) := by
  rw [Value.flushed4]
  unfold out0_4
  rw [View.canon_unit_zero origin]
  simp only [View.ld_unit_zero (S := S1024x128) origin, View.ld_unit_zero (S := S1024x1) origin,
    View.ld_unit_zero (S := S1x1024) origin]
  obtain ⟨e00, e01, e10, e11, e20, e21, e30, e31, b0, b1⟩ := index_facts t
  funext j
  obtain ⟨p, q, rfl⟩ : ∃ (p q : Fin 1024), j = ix2 p q := ⟨j 0, j 1, eq_ix2 (n0 := 1024) (n1 := 1024) j⟩
  have hp : p.val < 1024 := p.isLt
  have hq : q.val < 1024 := q.isLt
  show k0_pay1 (iblk m c 0 t) (iblk m c 1 t) (iblk m c 2 t) (iblk m c 3 t) (ix2 p q)
    = scoreFolded (zArr m c) (WArr m c) (wArr m c) (((cfg0.win 4).blk t).view.emb (ix2 p q))
  have hemb : ((cfg0.win 4).blk t).view.emb (ix2 p q)
      = ix2 (⟨win0_4.index t (0 : Fin 2) * 1024 + p.val, by omega⟩ : Fin 8192)
          (⟨win0_4.index t (1 : Fin 2) * 1024 + q.val, by omega⟩ : Fin 8192) := by
    funext a; apply Fin.ext
    match a with
    | ⟨0, _⟩ => show win0_4.index t (0 : Fin 2) * 1024 + 1 * p.val = win0_4.index t (0 : Fin 2) * 1024 + p.val; omega
    | ⟨1, _⟩ => show win0_4.index t (1 : Fin 2) * 1024 + 1 * q.val = win0_4.index t (1 : Fin 2) * 1024 + q.val; omega
  rw [hemb]
  refine block_apply (zArr m c) (WArr m c) (wArr m c) (iblk m c 0 t) (iblk m c 1 t) (iblk m c 2 t) (iblk m c 3 t) _ _ p q ?_ ?_ ?_ ?_
  · intro k
    show V m c main_v14 (((cfg0.win 0).blk t).view.emb (ix2 p k)) = _
    rw [scaled_array]
    refine congrArg (scaled (zArr m c) (lower (wArr m c))) (funext fun a => Fin.ext ?_)
    match a with
    | ⟨0, _⟩ => show win0_0.index t (0 : Fin 2) * 1024 + 1 * p.val = win0_4.index t (0 : Fin 2) * 1024 + p.val; omega
    | ⟨1, _⟩ => show win0_0.index t (1 : Fin 2) * 128 + 1 * k.val = k.val; omega
  · intro k
    show V m c main_v15 (((cfg0.win 1).blk t).view.emb (ix2 q k)) = _
    rw [plain_array]
    refine congrArg (zArr m c) (funext fun a => Fin.ext ?_)
    match a with
    | ⟨0, _⟩ => show win0_1.index t (0 : Fin 2) * 1024 + 1 * q.val = win0_4.index t (1 : Fin 2) * 1024 + q.val; omega
    | ⟨1, _⟩ => show win0_1.index t (1 : Fin 2) * 128 + 1 * k.val = k.val; omega
  · show V m c main_v7 (((cfg0.win 2).blk t).view.emb (ix2 p (0 : Fin 1))) = _
    rw [first_column]
    refine congrArg (mm (relu (zArr m c)) (mm (upper (WArr m c)) (upper (wArr m c)))) (funext fun a => Fin.ext ?_)
    match a with
    | ⟨0, _⟩ => show win0_2.index t (0 : Fin 2) * 1024 + 1 * p.val = win0_4.index t (0 : Fin 2) * 1024 + p.val; omega
    | ⟨1, _⟩ => show win0_2.index t (1 : Fin 2) * 1 + 1 * 0 = 0; omega
  · show V m c main_v9 (((cfg0.win 3).blk t).view.emb (ix2 (0 : Fin 1) q)) = _
    rw [second_row]
    have he : ((cfg0.win 3).blk t).view.emb (ix2 (0 : Fin 1) q)
        = ix2 (0 : Fin 1) (⟨win0_4.index t (1 : Fin 2) * 1024 + q.val, by omega⟩ : Fin 8192) := by
      funext a; apply Fin.ext
      match a with
      | ⟨0, _⟩ => show win0_3.index t (0 : Fin 2) * 1 + 1 * 0 = 0; omega
      | ⟨1, _⟩ => show win0_3.index t (1 : Fin 2) * 1024 + 1 * q.val = win0_4.index t (1 : Fin 2) * 1024 + q.val; omega
    rw [he]
    exact column_reshaped_apply _ _ _

/-- An index of the result is in point `t`'s block iff each coordinate is in the block's range on its axis. -/
theorem mem_block (t : Fin cfg0.N) (i : S8192x8192.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v16).slice (win0_4.rect t)).set ↔ _
  rw [View.set_slice_whole, Rect.mem_set_unit]
  exact Iff.rfl

/-- The 64 blocks tile the result: entry `(r, s)` lies in the block of point `(r / 1024, s / 1024)`. -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := index_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The result array after the run is the folded pair score of the argument arrays. -/
theorem final (c : Dev nD) :
    (dats m 0 c).arrAt 4 cfg0.N = scoreFolded (zArr m c) (WArr m c) (wArr m c) :=
  (dats m 0 c).arrAt_eq_of_cover 4 _ (fun t _ => flushed_eq m c t) covered

/-- Every weakly fair execution of the kernel program ends with the result array at the folded pair score of the
    arguments, and the arguments unchanged. -/
theorem run : θ_run defs (onTc (τ := τ) (main (F := Ideal))) ⟨m, fun _ => 0, ρ⟩ fun r => ∀ c : Dev nD,
      r.2.mem ((c : Thread nD τ).loc main_v16) = scoreFolded (zArr m c) (WArr m c) (wArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.PairValue

end
-- ==== Proof.RefValue.lean ====
/-
  The reference's result is the chained pair score.

  The reference multiplies `relu z` by each half of `W` and then by the upper half of `w`, one product after the other,
  lays the first resulting column over the columns and the second, transposed into a row, over the rows, adds the
  product of the scaled embeddings with `z` transposed, and applies the sigmoid written out as `1 / (1 + exp (-s))`.
  Stage by stage these are the specification's terms; a product with `z` transposed is the product with the rows of
  `z`.
-/
import proofs.«159595_j40699110097057_1_alg».proof.Proof.Gen.ReferenceIdeal.Read
import proofs.«159595_j40699110097057_1_alg».proof.Proof.HostForms

noncomputable section

namespace Cert.ReferenceIdeal.PairValue

open Cert.ReferenceIdeal Cert.ReferenceIdeal.Gen Cert.ReferenceIdeal.Read Idealize.ShloMosaic
open Idealize.ShloMosaic.ValueIdx Cert.DenseLayer Cert.DenseRows Cert.PropagationChain Cert.PairScore

variable (z : FVec Ideal S8192x128 .f32) (W : FVec Ideal S256x128 .f32) (w : FVec Ideal S256x1 .f32)

/-- The first column: `(relu z · W↑) · w↑`. -/
theorem first_column : val_main_v6 (F := Ideal) z W w = mm (mm (relu z) (upper W)) (upper w) := by
  unfold val_main_v6 val_main_v5 val_main_v4 val_main_call0_v0 val_main_call0_cst val_main_v0 val_main_v2
  rw [relu_form, upper_form, upper_form, dotGeneral_form (plainDot_of_axes _ rfl rfl rfl rfl rfl rfl),
    dotGeneral_form (plainDot_of_axes _ rfl rfl rfl rfl rfl rfl)]

/-- The second column: `(relu z · W↓) · w↑`. -/
theorem second_column : val_main_v8 (F := Ideal) z W w = mm (mm (relu z) (lower W)) (upper w) := by
  unfold val_main_v8 val_main_v7 val_main_v4 val_main_call0_v0 val_main_call0_cst val_main_v1 val_main_v2
  rw [relu_form, lower_form, upper_form, dotGeneral_form (plainDot_of_axes _ rfl rfl rfl rfl rfl rfl),
    dotGeneral_form (plainDot_of_axes _ rfl rfl rfl rfl rfl rfl)]

/-- The pair product: the scaled embeddings times `z` transposed. -/
theorem pair_product : val_main_v14 (F := Ideal) z w
    = mm (scaled z (lower w)) (transpose S128x8192 [1, 0] z transposes_S8192x128_S128x8192_1_0) := by
  unfold val_main_v14 val_main_v12 val_main_v11 val_main_v10 val_main_v9 val_main_v3 val_main_v13
  rw [lower_form, scaled_form, dotGeneral_form (plainDot_of_axes _ rfl rfl rfl rfl rfl rfl)]

/-- The reference's result array is the chained pair score of its arguments. -/
theorem reference_eq : val_main_v25 (F := Ideal) z W w = scoreChained z W w := by
  funext i
  obtain ⟨r, q, rfl⟩ : ∃ (r q : Fin 8192), i = ix2 r q := ⟨i 0, i 1, eq_ix2 (n0 := 8192) (n1 := 8192) i⟩
  rw [val_main_v25_apply, val_main_v24_apply, val_main_cst_0_apply, val_main_v23_apply, val_main_v22_apply,
    val_main_cst_apply, val_main_v21_apply, val_main_v20_apply, val_main_v19_apply, val_main_v18_apply,
    val_main_v16_apply, val_main_v17_apply, val_main_v15_apply, first_column, second_column, pair_product]
  show Ideal.div (Ideal.ofBits .f32 0x3F800000#32) (Ideal.ofBits .f32 0x3F800000#32 + Ideal.exp (-
      ((prodRow (mm (relu z) (upper W)) (upper w) r (0 : Fin 1) + prodRow (mm (relu z) (lower W)) (upper w) q (0 : Fin 1))
        + prodRow (scaled z (lower w)) (transpose S128x8192 [1, 0] z transposes_S8192x128_S128x8192_1_0) r q))) = _
  rw [logistic_written_out,
    prodRow_transposed (scaled z (lower w)) _ z (fun k q => transpose_ix2_apply z transposes_S8192x128_S128x8192_1_0 k q)]
  rfl

end Cert.ReferenceIdeal.PairValue

end
-- ==== Proof.Finite.lean ====
/-
  Finite inputs are matrices of real numbers.

  The precondition says of each argument array that every entry's absolute value compares below the word of `+∞`, and
  takes the conjunction over all entries and over the three arrays. An extended real whose absolute value is below
  `+∞` is neither infinity, so it is a real number; hence under the precondition every entry of the embeddings and of
  both weights is real.
-/
import proofs.«159595_j40699110097057_1_alg».proof.Pre_finite_inputs
import proofs.«159595_j40699110097057_1_alg».proof.Proof.Spec
import Idealize.ShloMosaic.Lib.ReduceAll
import Idealize.ShloMosaic.Lib.ValueIdx
import Idealize.ShloMosaic.PureOps.Ideal

noncomputable section

namespace Cert.PairScore

open Idealize.ShloMosaic Cert.PropagationChain

/-- An extended real whose absolute value compares below the word of `+∞` is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

instance : Subsingleton Cert.Pre_finite_inputs.S_.Idx := ⟨fun _ _ => funext fun d => d.elim0⟩

variable [Cert.Pre_finite_inputs.Facts]

open Cert.Pre_finite_inputs in
/-- Under the precondition the three argument arrays hold real numbers only. -/
theorem reals_of_finite (z : FVec Ideal S8192x128 .f32) (W : FVec Ideal S256x128 .f32) (w : FVec Ideal S256x1 .f32)
    (h : Cert.Pre_finite_inputs.fn (F := Ideal) z W w = fun _ => 1#1) : IsReal z ∧ IsReal W ∧ IsReal w := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨fun i => real_of_abs_lt_inf (z i) (Host.reduce_andi_all _ _ _ _ _ h1 i),
    fun i => real_of_abs_lt_inf (W i) (Host.reduce_andi_all _ _ _ _ _ h2 i),
    fun i => real_of_abs_lt_inf (w i) (Host.reduce_andi_all _ _ _ _ _ h3 i)⟩

end Cert.PairScore

end
-- ==== Proof.lean ====
/-
  Pair scores of a link predictor: a tiled kernel against a plain reference, equal over the extended reals on finite
  inputs.

  Both programs compute, for node embeddings `z : [8192, 128]`, a weight `W : [256, 128]` and a weight column
  `w : [256, 1]` (each split into an upper and a lower half of 128 rows), the matrix of

      sigmoid (a i + b j + ∑ₖ z (i, k) · w↓ k · z (j, k)),   a = relu z · W↑ · w↑,   b = relu z · W↓ · w↑.

  The kernel program first folds the two weights into coefficient columns `W↑ · w↑` and `W↓ · w↑` and multiplies
  `relu z` by those; the reference multiplies `relu z` by `W↑` (or `W↓`) and the result by `w↑`. The two are the two
  bracketings of a triple matrix product, equal where every entry is a real number: that is where the precondition,
  every input finite, is used. Everything else is the same function on all extended reals: a conversion to a narrower
  float format is the identity, the kernel's logistic operation is `1 / (1 + exp (-s))` as the reference writes it, the
  kernel's matrix product along the second axis of both operands is the reference's product with `z` transposed, and
  the kernel's 8 × 8 grid of 1024 × 1024 blocks tiles the result.

  The frames of the two kernel programs are the generated ones; the reference's frame is its generated run with the
  result dropped; the idealization rewrote nothing, so `preserves` is trivial.
-/
import proofs.«159595_j40699110097057_1_alg».proof.Defs
import proofs.«159595_j40699110097057_1_alg».proof.Proof.Gen.Kernel
import proofs.«159595_j40699110097057_1_alg».proof.Proof.Gen.Kernel.Skeleton
import proofs.«159595_j40699110097057_1_alg».proof.Proof.Gen.Kernel.Launch
import proofs.«159595_j40699110097057_1_alg».proof.Proof.Gen.Kernel.Points
import proofs.«159595_j40699110097057_1_alg».proof.Proof.Gen.Kernel.Frame
import proofs.«159595_j40699110097057_1_alg».proof.Proof.Gen.KernelIdeal
import proofs.«159595_j40699110097057_1_alg».proof.Proof.Gen.KernelIdeal.Skeleton
import proofs.«159595_j40699110097057_1_alg».proof.Proof.Gen.KernelIdeal.Launch
import proofs.«159595_j40699110097057_1_alg».proof.Proof.Gen.KernelIdeal.Points
import proofs.«159595_j40699110097057_1_alg».proof.Proof.Gen.KernelIdeal.Frame
import proofs.«159595_j40699110097057_1_alg».proof.Proof.Gen.ReferenceIdeal
import proofs.«159595_j40699110097057_1_alg».proof.Proof.Gen.Pre_finite_inputs
import proofs.«159595_j40699110097057_1_alg».proof.Proof.Gen.KernelIdeal.Value
import proofs.«159595_j40699110097057_1_alg».proof.Proof.Gen.ReferenceIdeal.Run
import proofs.«159595_j40699110097057_1_alg».proof.Proof.Gen.ReferenceIdeal.Read
import Idealize.ShloMosaic.Adequacy
import Idealize.ShloMosaic.Init
import proofs.«159595_j40699110097057_1_alg».proof.Proof.KernelValue
import proofs.«159595_j40699110097057_1_alg».proof.Proof.RefValue
import proofs.«159595_j40699110097057_1_alg».proof.Proof.Finite

noncomputable section

namespace Cert.Proof

open Idealize.ShloMosaic Idealize.SL.Sem

/-- At the ideal values the kernel program ends with the folded pair score of its arguments and the reference with the
    chained one; on finite, hence real, inputs the two are one matrix. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, Cert.KernelIdeal.PairValue.run m ρ, ?_⟩
  refine (θ_run Cert.ReferenceIdeal.defs _ _).mono (fun _ h c => ⟨(h c).1.trans ?_, (h c).2⟩)
    (Cert.ReferenceIdeal.Value.run (F := Ideal) m' ρ')
  obtain ⟨hz, hW, hw⟩ := Cert.PairScore.reals_of_finite _ _ _ (hpre c)
  rw [Cert.ReferenceIdeal.Read.val_main_v25_eq, Cert.ReferenceIdeal.PairValue.reference_eq, (hagree c).1, (hagree c).2.1,
    (hagree c).2.2]
  exact Cert.PairScore.scoreChained_eq_scoreFolded _ _ _ hz hW hw

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
